-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024 : Shape := ⟨1, ![1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x256 .f32) (main_arg5 : FVec F S1024 .f32) (main_arg6 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S65536x256 .f32) (main_arg1 : FVec F S65536x256 .f32) (main_arg2 : FVec F S65536x256 .f32) (main_arg3 : FVec F S1024x256 .f32) (main_arg4 : FVec F S1024x256 .f32) (main_arg5 : FVec F S1024 .f32) (main_arg6 : FVec F S1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_v13 main_v16
-- ==== Kernel.lean ====
abbrev S65536x256 : Shape := ⟨2, ![65536, 256]⟩
abbrev S1024x256 : Shape := ⟨2, ![1024, 256]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S65536x256, .f32⟩
  | .hbm, ⟨10, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x1024, .f32⟩
  | .local _ .vmem, ⟨9, _⟩ => ⟨S1x1024, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S65536x256.size a
  hwx0_8 : ∀ i : grid0.Coords, EltTy.bits .f32 = 32 ∨ (Rect.block (s := S65536x256) S1024x256.size (cc0_transform_8 i) (hinb0_8 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024 : Shape := ⟨1, ![1024]⟩
abbrev S65536x1024 : Shape := ⟨2, ![65536, 1024]⟩
abbrev S1x1024 : Shape := ⟨2, ![1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S65536x1024, .f32⟩
  | .hbm, ⟨8, _⟩ => ⟨S1x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S_, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x256_S1024x256_S65536x1024_1_1_0_0_n_n_wf : DotDims.WF S65536x256 S1024x256 S65536x1024 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf

class Facts : Prop extends Facts₀ where

variable [Facts]
-- ==== Proof.Cell.lean ====
/-
  The LSTM cell, as mathematics over the extended reals.

  For one batch row with input row `xr`, hidden row `hr` (each a function of k < 256) and cell entry `cv`, the four
  gate pre-activations are columns of one 1024-wide affine map,
      gate g = (Σ_k xr k · W_ih[g, k]) + (Σ_k hr k · W_hh[g, k]) + b_ih[g] + b_hh[g],
  the columns 0..255 the input gate, 256..511 the forget gate, 512..767 the candidate, 768..1023 the output gate. Then
      c' = σ(gate(256 + j)) · cv + σ(gate j) · tanh(gate(512 + j)),      h' = σ(gate(768 + j)) · tanh c',
  with σ the logistic function 1 / (1 + e^(-x)) extended by its limits 0 and 1 at -∞ and +∞.
  A row is all the definition reads of the batch, so the same functions describe a block of rows and the whole array.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- Weight matrices: 1024 gate columns by 256 features. -/
abbrev SW : Shape := ⟨2, ![1024, 256]⟩
/-- Batch arrays: 65536 rows by 256 features. -/
abbrev SB : Shape := ⟨2, ![65536, 256]⟩
/-- Bias vectors. -/
abbrev SV : Shape := ⟨1, ![1024]⟩

/-- Column `j` of gate block `q` (0 input, 1 forget, 2 candidate, 3 output) among the 1024 gate columns. -/
def col (q : Fin 4) (j : Fin 256) : Fin 1024 := ⟨256 * q.val + j.val, by have := q.isLt; have := j.isLt; omega⟩

/-- One gate pre-activation of one batch row. -/
def gateRow (xr hr : Fin 256 → EReal) (wih whh : SW.Idx → EReal) (bih bhh : Fin 1024 → EReal) (g : Fin 1024) : EReal :=
  (∑ k : Fin 256, xr k * wih (ix2 g k)) + (∑ k : Fin 256, hr k * whh (ix2 g k)) + bih g + bhh g

/-- The new cell state at feature `j` of one batch row whose old cell entry there is `cv`. -/
def cRow (xr hr : Fin 256 → EReal) (wih whh : SW.Idx → EReal) (bih bhh : Fin 1024 → EReal) (cv : EReal) (j : Fin 256) : EReal :=
  Ideal.logistic (gateRow xr hr wih whh bih bhh (col 1 j)) * cv
    + Ideal.logistic (gateRow xr hr wih whh bih bhh (col 0 j)) * Ideal.tanh (gateRow xr hr wih whh bih bhh (col 2 j))

/-- The new hidden state at feature `j` of that row. -/
def hRow (xr hr : Fin 256 → EReal) (wih whh : SW.Idx → EReal) (bih bhh : Fin 1024 → EReal) (cv : EReal) (j : Fin 256) : EReal :=
  Ideal.logistic (gateRow xr hr wih whh bih bhh (col 3 j)) * Ideal.tanh (cRow xr hr wih whh bih bhh cv j)

/-- The new cell state of the whole batch, index by index. -/
def cNew (x h c : SB.Idx → EReal) (wih whh : SW.Idx → EReal) (bih bhh : SV.Idx → EReal) : SB.Idx → EReal := fun i =>
  cRow (fun k => x (ix2 (i 0) k)) (fun k => h (ix2 (i 0) k)) wih whh (fun g => bih (ix1 g)) (fun g => bhh (ix1 g)) (c i) (i 1)

/-- The new hidden state of the whole batch, index by index. -/
def hNew (x h c : SB.Idx → EReal) (wih whh : SW.Idx → EReal) (bih bhh : SV.Idx → EReal) : SB.Idx → EReal := fun i =>
  hRow (fun k => x (ix2 (i 0) k)) (fun k => h (ix2 (i 0) k)) wih whh (fun g => bih (ix1 g)) (fun g => bhh (ix1 g)) (c i) (i 1)

/-- The float pattern of 1.0 denotes the real number one. -/
theorem ofBits_one : Ideal.ofBits .f32 0x3F800000#32 = 1 := by
  simp [Ideal.ofBits, Ideal.ieee, -EReal.coe_mul]; norm_num

/-- The logistic function spelt as a quotient: one over one plus the exponential of the negated argument, every step
    the extended reals' own (division's and the exponential's conventions at the infinities included). -/
theorem logistic_eq_quotient (x : EReal) : Ideal.div 1 (1 + Ideal.exp (-x)) = Ideal.logistic x := rfl

/-- A sum of four terms in the two groupings the two programs use: the second and third summands trade places. -/
theorem sum_regroup (a b u v : EReal) : a + u + b + v = a + b + u + v := by
  rw [add_right_comm a u b]

end Cert.Cell

end
-- ==== Proof.KerGate.lean ====
/-
  The kernel's gate pre-activations, read at an index.

  The body forms, for a block of 1024 batch rows, the 1024 × 1024 matrix
      (x_blk · W_ihᵀ + h_blk · W_hhᵀ) + b_ih + b_hh,
  each product a contraction over the 256 features into a zero accumulator and each bias one row broadcast down the block
  (the narrowing of the operands to bf16 changes no value over the extended reals). Its entry at row `p`, column `g` is
  therefore the cell's gate pre-activation `g` of the block's row `p`.
-/
import proofs.«164098_j26551487824698_1_alg».proof.Proof.Gen.KernelIdeal.Skeleton
import proofs.«164098_j26551487824698_1_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellBlock

open Cert.KernelIdeal Cert.KernelIdeal.Gen Idealize.ShloMosaic Idealize.ShloMosaic.ValueIdx Cert.Cell

/-! ## The contraction's operand indices, axis by axis -/

theorem lhs_axis0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_axis1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_axis0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_axis1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- A product `l · rᵀ` into a zero accumulator, at row `p` and column `g`: the sum over the 256 features of row `p` of
    `l` against row `g` of `r`. -/
theorem product_at {φ₁ φ₂ : FTy} (l : FVec Ideal S1024x256 φ₁) (r : FVec Ideal S1024x256 φ₂) (p g : Fin 1024) :
    matmul dot_S1024x256_S1024x256_S1024x1024_1_1_0_0_n_n none l r (constant (F := Ideal) S1024x1024 .f32 0x00000000#32) (ix2 p g)
      = ∑ k : Fin 256, l (ix2 p k) * r (ix2 g k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p g) ((contrEquiv1 dot_S1024x256_S1024x256_S1024x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S1024x256_S1024x1024_1_1_0_0_n_n.rhsIdx (ix2 p g) ((contrEquiv1 dot_S1024x256_S1024x256_S1024x1024_1_1_0_0_n_n 256 rfl rfl).symm k) = ix2 g k := funext fun a => Fin.ext (by
    match a with
    | ⟨0, _⟩ => exact rhs_axis0 _ _
    | ⟨1, _⟩ => exact (rhs_axis1 _ _).trans hk)
  rw [el, er]

/-- THE GATE MATRIX AT AN INDEX: entry `(p, g)` of what the body computes from a block's loads is gate `g` of the cell for
    the block's row `p`, the biases read off their one row. -/
theorem gates_at (v0 v2 v4 v6 : Vec Ideal S1024x256 .f32) (v11 v15 : Vec Ideal S1x1024 .f32) (p g : Fin 1024) :
    k0_pay1 (F := Ideal) v0 v2 v4 v6 v11 v15 (ix2 p g)
      = gateRow (fun k => v0 (ix2 p k)) (fun k => v2 (ix2 p k)) v4 v6
          (fun g' => v11 (ix2 (0 : Fin 1) g')) (fun g' => v15 (ix2 (0 : Fin 1) g')) g := by
  unfold k0_pay1 gateRow
  show matmul dot_S1024x256_S1024x256_S1024x1024_1_1_0_0_n_n none (truncf .bf16 v0 bitsLt_bf16_f32) (truncf .bf16 v4 bitsLt_bf16_f32) (constant (F := Ideal) S1024x1024 .f32 0x00000000#32) (ix2 p g)
      + matmul dot_S1024x256_S1024x256_S1024x1024_1_1_0_0_n_n none (truncf .bf16 v2 bitsLt_bf16_f32) (truncf .bf16 v6 bitsLt_bf16_f32) (constant (F := Ideal) S1024x1024 .f32 0x00000000#32) (ix2 p g)
      + broadcastTo S1024x1024 (shapeCast S1x1024 v11 shapeCasts_S1x1024_S1x1024) broadcasts_S1x1024_S1024x1024 (ix2 p g)
      + broadcastTo S1024x1024 (shapeCast S1x1024 v15 shapeCasts_S1x1024_S1x1024) broadcasts_S1x1024_S1024x1024 (ix2 p g) = _
  rw [product_at, product_at, broadcastTo_1b_ab_apply, broadcastTo_1b_ab_apply, shapeCast_self, shapeCast_self]
  rfl

end Cert.KernelIdeal.CellBlock

end
-- ==== Proof.KerValue.lean ====
/-
  What the kernel leaves in its two result arrays.

  The grid has 64 points; point `t` works on batch rows 1024·t … 1024·t + 1023. It is handed that block of rows of x, h and
  c, the two weight matrices whole, and the two biases as single rows (each bias reshaped from 1024 to 1 × 1024 before the
  call), and it writes back that block of rows of the two results. So:
    * in a block, entry `(p, j)` of what the body stores is the cell's new cell state (resp. new hidden state) of the
      block's row `p`, by the gate matrix read at an index;
    * the block's row `p` at point `t` is the batch's row 1024·t + p, the weights are the arguments themselves, and a
      bias row at column `g` is the bias at `g`: what point `t` writes back is block `t` of the cell's whole-array result;
    * the 64 blocks tile the 65536 rows, so after the run each result array IS that whole-array result.
-/
import proofs.«164098_j26551487824698_1_alg».proof.Proof.Gen.KernelIdeal.Value
import proofs.«164098_j26551487824698_1_alg».proof.Proof.KerGate
import proofs.«164098_j26551487824698_1_alg».proof.Proof.Cell
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.CellValue

open Cert.KernelIdeal Cert.KernelIdeal.Gen Idealize.ShloMosaic Idealize.ShloMosaic.TcCoe Idealize.SL.Sem
open Idealize.ShloMosaic.ValueIdx Cert.Cell Cert.KernelIdeal.CellBlock
open Idealize.ShloMosaic.Pipeline (Dat)

/-! ## A block of rows -/

/-- Inside a block, the stored new cell state at `(p, j)` is the cell's, for the block's row `p`: the forget, input
    and candidate gates are the gate matrix's columns 256 + j, j and 512 + j of that row. -/
theorem cell_block (a0 a1 a2 a3 : Vec Ideal S1024x256 .f32) (a4 a5 : Vec Ideal S1x1024 .f32) (a6 : Vec Ideal S1024x256 .f32)
    (p : Fin 1024) (j : Fin 256) :
    View.canon ([⟨r0_0, k0_pay2 a0 a1 a2 a3 a4 a5 a6⟩] : List (View.Piece (Elt Ideal) S1024x256 .f32)) (ix2 p j)
      = cRow (fun k => a0 (ix2 p k)) (fun k => a1 (ix2 p k)) a2 a3
          (fun g => a4 (ix2 (0 : Fin 1) g)) (fun g => a5 (ix2 (0 : Fin 1) g)) (a6 (ix2 p j)) j := by
  refine (Value.canon8_eq a0 a1 a2 a3 a4 a5 a6 (ix2 p j)).trans ?_
  have e0 : Value.ix8_0 (ix2 p j) = ix2 p (col 1 j) := funext fun a => Fin.ext (by
    match a with
    | ⟨0, _⟩ => rfl
    | ⟨1, _⟩ => show j.val + 256 = 256 * 1 + j.val; omega)
  have e1 : Value.ix8_1 (ix2 p j) = ix2 p j := funext fun a => Fin.ext (by
    match a with
    | ⟨0, _⟩ => rfl
    | ⟨1, _⟩ => rfl)
  have e2 : Value.ix8_2 (ix2 p j) = ix2 p (col 0 j) := funext fun a => Fin.ext (by
    match a with
    | ⟨0, _⟩ => rfl
    | ⟨1, _⟩ => show j.val = 256 * 0 + j.val; omega)
  have e3 : Value.ix8_3 (ix2 p j) = ix2 p (col 2 j) := funext fun a => Fin.ext (by
    match a with
    | ⟨0, _⟩ => rfl
    | ⟨1, _⟩ => show j.val + 512 = 256 * 2 + j.val; omega)
  unfold Value.E8
  rw [e0, e1, e2, e3, gates_at, gates_at, gates_at]
  rfl

/-- Inside a block, the stored new hidden state at `(p, j)` is the cell's, for the block's row `p`: the output gate is
    column 768 + j, and the rest is the new cell state again. -/
theorem hidden_block (a0 a1 a2 a3 : Vec Ideal S1024x256 .f32) (a4 a5 : Vec Ideal S1x1024 .f32) (a6 : Vec Ideal S1024x256 .f32)
    (p : Fin 1024) (j : Fin 256) :
    View.canon ([⟨r0_0, k0_pay3 a0 a1 a2 a3 a4 a5 a6⟩] : List (View.Piece (Elt Ideal) S1024x256 .f32)) (ix2 p j)
      = hRow (fun k => a0 (ix2 p k)) (fun k => a1 (ix2 p k)) a2 a3
          (fun g => a4 (ix2 (0 : Fin 1) g)) (fun g => a5 (ix2 (0 : Fin 1) g)) (a6 (ix2 p j)) j := by
  refine (Value.canon7_eq a0 a1 a2 a3 a4 a5 a6 (ix2 p j)).trans ?_
  have e0 : Value.ix7_0 (ix2 p j) = ix2 p (col 3 j) := funext fun a => Fin.ext (by
    match a with
    | ⟨0, _⟩ => rfl
    | ⟨1, _⟩ => show j.val + 768 = 256 * 3 + j.val; omega)
  have e1 : Value.ix7_1 (ix2 p j) = ix2 p (col 1 j) := funext fun a => Fin.ext (by
    match a with
    | ⟨0, _⟩ => rfl
    | ⟨1, _⟩ => show j.val + 256 = 256 * 1 + j.val; omega)
  have e2 : Value.ix7_2 (ix2 p j) = ix2 p j := funext fun a => Fin.ext (by
    match a with
    | ⟨0, _⟩ => rfl
    | ⟨1, _⟩ => rfl)
  have e3 : Value.ix7_3 (ix2 p j) = ix2 p (col 0 j) := funext fun a => Fin.ext (by
    match a with
    | ⟨0, _⟩ => rfl
    | ⟨1, _⟩ => show j.val = 256 * 0 + j.val; omega)
  have e4 : Value.ix7_4 (ix2 p j) = ix2 p (col 2 j) := funext fun a => Fin.ext (by
    match a with
    | ⟨0, _⟩ => rfl
    | ⟨1, _⟩ => show j.val + 512 = 256 * 2 + j.val; omega)
  unfold Value.E7
  rw [e0, e1, e2, e3, e4, gates_at, gates_at, gates_at, gates_at]
  rfl

/-- A block's entry is the whole array's, once the block's loads are known to be the arrays' rows: row `p` of the
    block of x, h, c is row `b` of the arrays, the weights are the arrays, and the bias rows are the biases. -/
theorem cell_point (a0 a1 a2 a3 : Vec Ideal S1024x256 .f32) (a4 a5 : Vec Ideal S1x1024 .f32) (a6 : Vec Ideal S1024x256 .f32)
    (X H C : SB.Idx → EReal) (Wih Whh : SW.Idx → EReal) (Bih Bhh : SV.Idx → EReal)
    (p : Fin 1024) (j : Fin 256) (b : Fin 65536)
    (hx : ∀ k : Fin 256, a0 (ix2 p k) = X (ix2 b k)) (hh : ∀ k : Fin 256, a1 (ix2 p k) = H (ix2 b k))
    (hwi : a2 = Wih) (hwh : a3 = Whh)
    (hbi : ∀ g : Fin 1024, a4 (ix2 (0 : Fin 1) g) = Bih (ix1 g)) (hbh : ∀ g : Fin 1024, a5 (ix2 (0 : Fin 1) g) = Bhh (ix1 g))
    (hc : a6 (ix2 p j) = C (ix2 b j)) :
    View.canon ([⟨r0_0, k0_pay2 a0 a1 a2 a3 a4 a5 a6⟩] : List (View.Piece (Elt Ideal) S1024x256 .f32)) (ix2 p j)
      = cNew X H C Wih Whh Bih Bhh (ix2 b j) := by
  rw [cell_block]
  subst hwi hwh
  show _ = cRow (fun k => X (ix2 b k)) (fun k => H (ix2 b k)) a2 a3 (fun g => Bih (ix1 g)) (fun g => Bhh (ix1 g)) (C (ix2 b j)) j
  rw [funext hx, funext hh, funext hbi, funext hbh, hc]

theorem hidden_point (a0 a1 a2 a3 : Vec Ideal S1024x256 .f32) (a4 a5 : Vec Ideal S1x1024 .f32) (a6 : Vec Ideal S1024x256 .f32)
    (X H C : SB.Idx → EReal) (Wih Whh : SW.Idx → EReal) (Bih Bhh : SV.Idx → EReal)
    (p : Fin 1024) (j : Fin 256) (b : Fin 65536)
    (hx : ∀ k : Fin 256, a0 (ix2 p k) = X (ix2 b k)) (hh : ∀ k : Fin 256, a1 (ix2 p k) = H (ix2 b k))
    (hwi : a2 = Wih) (hwh : a3 = Whh)
    (hbi : ∀ g : Fin 1024, a4 (ix2 (0 : Fin 1) g) = Bih (ix1 g)) (hbh : ∀ g : Fin 1024, a5 (ix2 (0 : Fin 1) g) = Bhh (ix1 g))
    (hc : a6 (ix2 p j) = C (ix2 b j)) :
    View.canon ([⟨r0_0, k0_pay3 a0 a1 a2 a3 a4 a5 a6⟩] : List (View.Piece (Elt Ideal) S1024x256 .f32)) (ix2 p j)
      = hNew X H C Wih Whh Bih Bhh (ix2 b j) := by
  rw [hidden_block]
  subst hwi hwh
  show _ = hRow (fun k => X (ix2 b k)) (fun k => H (ix2 b k)) a2 a3 (fun g => Bih (ix1 g)) (fun g => Bhh (ix1 g)) (C (ix2 b j)) j
  rw [funext hx, funext hh, funext hbi, funext hbh, hc]

/-! ## The grid -/

variable (m : (ℓ : Loc nD τ sig) → Buf (Elt Ideal) ℓ) (ρ : Dev nD → PrngReg)

theorem origin : (![0, 0] : Fin 2 → Nat) = fun _ => 0 := funext fun a => by fin_cases a <;> rfl

/-- The index maps, decided over the 64 points: the three batch operands and the two results are at block row `t`, the
    weights and the bias rows always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 64 := by
  have h := t.isLt
  have hN : cfg0.N = 64 := N_0
  omega

/-! ## The bias rows the call is handed -/

/-- The first bias row is the input-side bias reshaped. -/
theorem bias_ih_row (c : Dev nD) :
    (V m c main_v0 : S1x1024.Idx → EReal) = shapeCast S1x1024 (m ((c : Thread nD τ).loc main_arg5)) shapeCasts_S1024_S1x1024 := by
  dsimp only [V, hostOps0]; after_results; rfl

/-- The second bias row is the hidden-side bias reshaped. -/
theorem bias_hh_row (c : Dev nD) :
    (V m c main_v1 : S1x1024.Idx → EReal) = shapeCast S1x1024 (m ((c : Thread nD τ).loc main_arg6)) shapeCasts_S1024_S1x1024 := by
  dsimp only [V, hostOps0]; after_results; rfl

/-! ## What point `t` is handed -/

/-- Row `p` of the block of x at point `t` is row 1024·t + p of x. -/
theorem x_rows (c : Dev nD) (t : Fin cfg0.N) (p : Fin 1024) (k : Fin 256) (b : Fin 65536) (hb : b.val = t.val * 1024 + p.val) :
    iblk m c 0 t (ix2 p k : S1024x256.Idx) = V m c main_arg0 (ix2 b k) := by
  obtain ⟨f00, f01, f10, f11, f20, f21, -⟩ := idx_facts t
  show V m c main_arg0 (((cfg0.win 0).blk t).view.emb (ix2 p k : S1024x256.Idx)) = V m c main_arg0 (ix2 b k)
  refine congrArg (V m c main_arg0) (funext fun a => Fin.ext ?_)
  match a with
  | ⟨0, _⟩ => show win0_0.index t (0 : Fin 2) * 1024 + 1 * p.val = b.val; omega
  | ⟨1, _⟩ => show win0_0.index t (1 : Fin 2) * 256 + 1 * k.val = k.val; omega

/-- Row `p` of the block of h at point `t` is row 1024·t + p of h. -/
theorem h_rows (c : Dev nD) (t : Fin cfg0.N) (p : Fin 1024) (k : Fin 256) (b : Fin 65536) (hb : b.val = t.val * 1024 + p.val) :
    iblk m c 1 t (ix2 p k : S1024x256.Idx) = V m c main_arg1 (ix2 b k) := by
  obtain ⟨f00, f01, f10, f11, f20, f21, -⟩ := idx_facts t
  show V m c main_arg1 (((cfg0.win 1).blk t).view.emb (ix2 p k : S1024x256.Idx)) = V m c main_arg1 (ix2 b k)
  refine congrArg (V m c main_arg1) (funext fun a => Fin.ext ?_)
  match a with
  | ⟨0, _⟩ => show win0_1.index t (0 : Fin 2) * 1024 + 1 * p.val = b.val; omega
  | ⟨1, _⟩ => show win0_1.index t (1 : Fin 2) * 256 + 1 * k.val = k.val; omega

/-- Row `p` of the block of c at point `t` is row 1024·t + p of c. -/
theorem c_rows (c : Dev nD) (t : Fin cfg0.N) (p : Fin 1024) (k : Fin 256) (b : Fin 65536) (hb : b.val = t.val * 1024 + p.val) :
    iblk m c 2 t (ix2 p k : S1024x256.Idx) = V m c main_arg2 (ix2 b k) := by
  obtain ⟨f00, f01, f10, f11, f20, f21, -⟩ := idx_facts t
  show V m c main_arg2 (((cfg0.win 2).blk t).view.emb (ix2 p k : S1024x256.Idx)) = V m c main_arg2 (ix2 b k)
  refine congrArg (V m c main_arg2) (funext fun a => Fin.ext ?_)
  match a with
  | ⟨0, _⟩ => show win0_2.index t (0 : Fin 2) * 1024 + 1 * p.val = b.val; omega
  | ⟨1, _⟩ => show win0_2.index t (1 : Fin 2) * 256 + 1 * k.val = k.val; omega

/-- Every point is handed the input-side weights whole. -/
theorem wih_whole (c : Dev nD) (t : Fin cfg0.N) : (iblk m c 3 t : S1024x256.Idx → EReal) = V m c main_arg3 := by
  obtain ⟨-, -, -, -, -, -, f30, f31, f40, f41, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1024 + 1 * (y 0).val = (y 0).val; omega
  | ⟨1, _⟩ => show win0_3.index t (1 : Fin 2) * 256 + 1 * (y 1).val = (y 1).val; omega

/-- Every point is handed the hidden-side weights whole. -/
theorem whh_whole (c : Dev nD) (t : Fin cfg0.N) : (iblk m c 4 t : S1024x256.Idx → EReal) = V m c main_arg4 := by
  obtain ⟨-, -, -, -, -, -, f30, f31, f40, f41, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 1024 + 1 * (y 0).val = (y 0).val; omega
  | ⟨1, _⟩ => show win0_4.index t (1 : Fin 2) * 256 + 1 * (y 1).val = (y 1).val; omega

/-- Every point is handed the input-side bias as one row: at column `g`, the bias at `g`. -/
theorem bih_row (c : Dev nD) (t : Fin cfg0.N) (g : Fin 1024) :
    iblk m c 5 t (ix2 (0 : Fin 1) g : S1x1024.Idx) = (m ((c : Thread nD τ).loc main_arg5)) (ix1 g) := by
  obtain ⟨-, -, -, -, -, -, -, -, -, -, f50, f51, f60, f61, -⟩ := idx_facts t
  have e : ((cfg0.win 5).blk t).view.emb (ix2 (0 : Fin 1) g : S1x1024.Idx) = (ix2 (0 : Fin 1) g : S1x1024.Idx) :=
    funext fun a => Fin.ext (by
      match a with
      | ⟨0, _⟩ => show win0_5.index t (0 : Fin 2) * 1 + 1 * 0 = 0; omega
      | ⟨1, _⟩ => show win0_5.index t (1 : Fin 2) * 1024 + 1 * g.val = g.val; omega)
  show V m c main_v0 (((cfg0.win 5).blk t).view.emb (ix2 (0 : Fin 1) g : S1x1024.Idx)) = _
  refine (congrArg (V m c main_v0) e).trans ?_
  refine (congrFun (bias_ih_row m c) _).trans ?_
  exact shapeCast_a_1a_apply _ _ 0 g

/-- Every point is handed the hidden-side bias as one row: at column `g`, the bias at `g`. -/
theorem bhh_row (c : Dev nD) (t : Fin cfg0.N) (g : Fin 1024) :
    iblk m c 6 t (ix2 (0 : Fin 1) g : S1x1024.Idx) = (m ((c : Thread nD τ).loc main_arg6)) (ix1 g) := by
  obtain ⟨-, -, -, -, -, -, -, -, -, -, f50, f51, f60, f61, -⟩ := idx_facts t
  have e : ((cfg0.win 6).blk t).view.emb (ix2 (0 : Fin 1) g : S1x1024.Idx) = (ix2 (0 : Fin 1) g : S1x1024.Idx) :=
    funext fun a => Fin.ext (by
      match a with
      | ⟨0, _⟩ => show win0_6.index t (0 : Fin 2) * 1 + 1 * 0 = 0; omega
      | ⟨1, _⟩ => show win0_6.index t (1 : Fin 2) * 1024 + 1 * g.val = g.val; omega)
  show V m c main_v1 (((cfg0.win 6).blk t).view.emb (ix2 (0 : Fin 1) g : S1x1024.Idx)) = _
  refine (congrArg (V m c main_v1) e).trans ?_
  refine (congrFun (bias_hh_row m c) _).trans ?_
  exact shapeCast_a_1a_apply _ _ 0 g

/-! ## What point `t` writes back -/

/-- The cell's new cell state of the arrays as the call finds them. -/
abbrev cellArr (c : Dev nD) : SB.Idx → EReal := cNew (V m c main_arg0) (V m c main_arg1) (V m c main_arg2) (V m c main_arg3) (V m c main_arg4) (m ((c : Thread nD τ).loc main_arg5)) (m ((c : Thread nD τ).loc main_arg6))

/-- The cell's new hidden state of the arrays as the call finds them. -/
abbrev hiddenArr (c : Dev nD) : SB.Idx → EReal := hNew (V m c main_arg0) (V m c main_arg1) (V m c main_arg2) (V m c main_arg3) (V m c main_arg4) (m ((c : Thread nD τ).loc main_arg5)) (m ((c : Thread nD τ).loc main_arg6))

/-- Point `t` writes back block `t` of the new cell state. -/
theorem cell_flushed (c : Dev nD) (t : Fin cfg0.N) :
    (dats m 0 c).flushed 8 t = ((cfg0.win 8).blk t).view.read (Elt Ideal) (cellArr m c) := by
  rw [Value.flushed8]
  unfold out0_8
  simp only [View.ld_unit_zero (S := S1024x256) origin, View.ld_unit_zero (S := S1x1024) origin]
  obtain ⟨-, -, -, -, -, -, -, -, -, -, -, -, -, -, f70, f71, f80, f81⟩ := idx_facts t
  have hN := point_lt t
  funext y
  have hp : (y 0).val < 1024 := (y 0).isLt
  have hj : (y 1).val < 256 := (y 1).isLt
  have hb : t.val * 1024 + (y 0).val < 65536 := by omega
  have hy : (cfg0.win 8).xinj (grid0.coords t) y = ix2 (⟨(y 0).val, hp⟩ : Fin 1024) (⟨(y 1).val, hj⟩ : Fin 256) :=
    funext fun a => Fin.ext (by
      match a with
      | ⟨0, _⟩ => rfl
      | ⟨1, _⟩ => rfl)
  have hi : ((cfg0.win 8).blk t).view.emb y = ix2 (⟨t.val * 1024 + (y 0).val, hb⟩ : Fin 65536) (⟨(y 1).val, hj⟩ : Fin 256) :=
    funext fun a => Fin.ext (by
      match a with
      | ⟨0, _⟩ => show win0_8.index t (0 : Fin 2) * 1024 + 1 * (y 0).val = t.val * 1024 + (y 0).val; omega
      | ⟨1, _⟩ => show win0_8.index t (1 : Fin 2) * 256 + 1 * (y 1).val = (y 1).val; omega)
  show View.canon ([⟨r0_0, k0_pay2 (iblk m c 0 t) (iblk m c 1 t) (iblk m c 3 t) (iblk m c 4 t) (iblk m c 5 t) (iblk m c 6 t) (iblk m c 2 t)⟩] : List (View.Piece (Elt Ideal) S1024x256 .f32)) ((cfg0.win 8).xinj (grid0.coords t) y)
      = cellArr m c (((cfg0.win 8).blk t).view.emb y)
  rw [hy, hi]
  exact cell_point (iblk m c 0 t) (iblk m c 1 t) (iblk m c 3 t) (iblk m c 4 t) (iblk m c 5 t) (iblk m c 6 t) (iblk m c 2 t)
    (V m c main_arg0) (V m c main_arg1) (V m c main_arg2) (V m c main_arg3) (V m c main_arg4) (m ((c : Thread nD τ).loc main_arg5)) (m ((c : Thread nD τ).loc main_arg6))
    ⟨(y 0).val, hp⟩ ⟨(y 1).val, hj⟩ ⟨t.val * 1024 + (y 0).val, hb⟩
    (fun k => x_rows m c t ⟨(y 0).val, hp⟩ k ⟨t.val * 1024 + (y 0).val, hb⟩ rfl)
    (fun k => h_rows m c t ⟨(y 0).val, hp⟩ k ⟨t.val * 1024 + (y 0).val, hb⟩ rfl)
    (wih_whole m c t) (whh_whole m c t)
    (fun g => bih_row m c t g) (fun g => bhh_row m c t g)
    (c_rows m c t ⟨(y 0).val, hp⟩ ⟨(y 1).val, hj⟩ ⟨t.val * 1024 + (y 0).val, hb⟩ rfl)

/-- Point `t` writes back block `t` of the new hidden state. -/
theorem hidden_flushed (c : Dev nD) (t : Fin cfg0.N) :
    (dats m 0 c).flushed 7 t = ((cfg0.win 7).blk t).view.read (Elt Ideal) (hiddenArr m c) := by
  rw [Value.flushed7]
  unfold out0_7
  simp only [View.ld_unit_zero (S := S1024x256) origin, View.ld_unit_zero (S := S1x1024) origin]
  obtain ⟨-, -, -, -, -, -, -, -, -, -, -, -, -, -, f70, f71, f80, f81⟩ := idx_facts t
  have hN := point_lt t
  funext y
  have hp : (y 0).val < 1024 := (y 0).isLt
  have hj : (y 1).val < 256 := (y 1).isLt
  have hb : t.val * 1024 + (y 0).val < 65536 := by omega
  have hy : (cfg0.win 7).xinj (grid0.coords t) y = ix2 (⟨(y 0).val, hp⟩ : Fin 1024) (⟨(y 1).val, hj⟩ : Fin 256) :=
    funext fun a => Fin.ext (by
      match a with
      | ⟨0, _⟩ => rfl
      | ⟨1, _⟩ => rfl)
  have hi : ((cfg0.win 7).blk t).view.emb y = ix2 (⟨t.val * 1024 + (y 0).val, hb⟩ : Fin 65536) (⟨(y 1).val, hj⟩ : Fin 256) :=
    funext fun a => Fin.ext (by
      match a with
      | ⟨0, _⟩ => show win0_7.index t (0 : Fin 2) * 1024 + 1 * (y 0).val = t.val * 1024 + (y 0).val; omega
      | ⟨1, _⟩ => show win0_7.index t (1 : Fin 2) * 256 + 1 * (y 1).val = (y 1).val; omega)
  show View.canon ([⟨r0_0, k0_pay3 (iblk m c 0 t) (iblk m c 1 t) (iblk m c 3 t) (iblk m c 4 t) (iblk m c 5 t) (iblk m c 6 t) (iblk m c 2 t)⟩] : List (View.Piece (Elt Ideal) S1024x256 .f32)) ((cfg0.win 7).xinj (grid0.coords t) y)
      = hiddenArr m c (((cfg0.win 7).blk t).view.emb y)
  rw [hy, hi]
  exact hidden_point (iblk m c 0 t) (iblk m c 1 t) (iblk m c 3 t) (iblk m c 4 t) (iblk m c 5 t) (iblk m c 6 t) (iblk m c 2 t)
    (V m c main_arg0) (V m c main_arg1) (V m c main_arg2) (V m c main_arg3) (V m c main_arg4) (m ((c : Thread nD τ).loc main_arg5)) (m ((c : Thread nD τ).loc main_arg6))
    ⟨(y 0).val, hp⟩ ⟨(y 1).val, hj⟩ ⟨t.val * 1024 + (y 0).val, hb⟩
    (fun k => x_rows m c t ⟨(y 0).val, hp⟩ k ⟨t.val * 1024 + (y 0).val, hb⟩ rfl)
    (fun k => h_rows m c t ⟨(y 0).val, hp⟩ k ⟨t.val * 1024 + (y 0).val, hb⟩ rfl)
    (wih_whole m c t) (whh_whole m c t)
    (fun g => bih_row m c t g) (fun g => bhh_row m c t g)
    (c_rows m c t ⟨(y 0).val, hp⟩ ⟨(y 1).val, hj⟩ ⟨t.val * 1024 + (y 0).val, hb⟩ rfl)

/-! ## The blocks tile the arrays -/

theorem mem_blk8 (t : Fin cfg0.N) (i : S65536x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v2_1).slice (win0_8.rect t)).set ↔ _
  rw [View.set_slice_whole, Rect.mem_set_unit]
  exact Iff.rfl

/-- Row `r` of the array lies in the block of point `r / 1024`. -/
theorem cover8 (i : S65536x256.Idx) : ∃ t : Fin cfg0.N, (cfg0.win 8).flush t = true ∧ i ∈ ((cfg0.win 8).blk t).view.set := by
  have hi0 : (i 0).val < 65536 := (i 0).isLt
  have hi1 : (i 1).val < 256 := (i 1).isLt
  have hN : cfg0.N = 64 := N_0
  have ht : (i 0).val / 1024 < cfg0.N := by omega
  obtain ⟨-, -, -, -, -, -, -, -, -, -, -, -, -, -, f70, f71, f80, f81⟩ := idx_facts ⟨(i 0).val / 1024, ht⟩
  refine ⟨⟨(i 0).val / 1024, ht⟩, flush0_8 _, ?_⟩
  rw [mem_blk8]
  intro a
  match a with
  | ⟨0, _⟩ =>
    show win0_8.index ⟨(i 0).val / 1024, ht⟩ (0 : Fin 2) * 1024 ≤ (i 0).val ∧ (i 0).val < win0_8.index ⟨(i 0).val / 1024, ht⟩ (0 : Fin 2) * 1024 + 1024
    have e : win0_8.index ⟨(i 0).val / 1024, ht⟩ (0 : Fin 2) = (i 0).val / 1024 := f80
    omega
  | ⟨1, _⟩ =>
    show win0_8.index ⟨(i 0).val / 1024, ht⟩ (1 : Fin 2) * 256 ≤ (i 1).val ∧ (i 1).val < win0_8.index ⟨(i 0).val / 1024, ht⟩ (1 : Fin 2) * 256 + 256
    omega

theorem mem_blk7 (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v2_0).slice (win0_7.rect t)).set ↔ _
  rw [View.set_slice_whole, Rect.mem_set_unit]
  exact Iff.rfl

/-- Row `r` of the array lies in the block of point `r / 1024`. -/
theorem cover7 (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  have hN : cfg0.N = 64 := N_0
  have ht : (i 0).val / 1024 < cfg0.N := by omega
  obtain ⟨-, -, -, -, -, -, -, -, -, -, -, -, -, -, f70, f71, f80, f81⟩ := idx_facts ⟨(i 0).val / 1024, ht⟩
  refine ⟨⟨(i 0).val / 1024, ht⟩, flush0_7 _, ?_⟩
  rw [mem_blk7]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    have e : win0_7.index ⟨(i 0).val / 1024, ht⟩ (0 : Fin 2) = (i 0).val / 1024 := f70
    omega
  | ⟨1, _⟩ =>
    show win0_7.index ⟨(i 0).val / 1024, ht⟩ (1 : Fin 2) * 256 ≤ (i 1).val ∧ (i 1).val < win0_7.index ⟨(i 0).val / 1024, ht⟩ (1 : Fin 2) * 256 + 256
    omega

/-! ## The arrays after the run -/

/-- After the run the second result array is the cell's new cell state of the arguments. -/
theorem cell_final (c : Dev nD) : (dats m 0 c).arrAt 8 cfg0.N = cNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [(dats m 0 c).arrAt_eq_of_cover 8 (cellArr m c) (fun t _ => cell_flushed m c t) cover8]
  show cNew (V m c main_arg0) (V m c main_arg1) (V m c main_arg2) (V m c main_arg3) (V m c main_arg4) (m ((c : Thread nD τ).loc main_arg5)) (m ((c : Thread nD τ).loc main_arg6)) = _
  rw [V_main_arg0, V_main_arg1, V_main_arg2, V_main_arg3, V_main_arg4]

/-- After the run the first result array is the cell's new hidden state of the arguments. -/
theorem hidden_final (c : Dev nD) : (dats m 0 c).arrAt 7 cfg0.N = hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [(dats m 0 c).arrAt_eq_of_cover 7 (hiddenArr m c) (fun t _ => hidden_flushed m c t) cover7]
  show hNew (V m c main_arg0) (V m c main_arg1) (V m c main_arg2) (V m c main_arg3) (V m c main_arg4) (m ((c : Thread nD τ).loc main_arg5)) (m ((c : Thread nD τ).loc main_arg6)) = _
  rw [V_main_arg0, V_main_arg1, V_main_arg2, V_main_arg3, V_main_arg4]

/-- THE KERNEL'S RUN, READ: every weakly fair execution terminates with the first result at the cell's new hidden state
    and the second at its new cell state, of the arguments as launched, the arguments unchanged. -/
theorem run : θ_run defs (onTc (τ := τ) (main (F := Ideal))) ⟨m, fun _ => 0, ρ⟩ fun r => ∀ c : Dev nD,
      r.2.mem ((c : Thread nD τ).loc main_v2_0) = hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v2_1) = cNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.KernelIdeal.CellValue

end
-- ==== Proof.RefCell.lean ====
/-
  The reference program computes the cell.

  Read one operation at a time, the reference forms the 65536 × 1024 gate matrix as
      ((x · W_ihᵀ + b_ih) + h · W_hhᵀ) + b_hh,
  which is the cell's gate pre-activation with two summands trading places; cuts it into the four gate blocks by column
  slices at 0, 256, 512, 768; applies to three of them the logistic function spelt as 1 / (1 + e^(-x)) and to the third the
  hyperbolic tangent; and combines them with the old cell state. Entry by entry that is `cNew` and `hNew`.
-/
import proofs.«164098_j26551487824698_1_alg».proof.Proof.Gen.ReferenceIdeal.Read
import proofs.«164098_j26551487824698_1_alg».proof.Proof.Cell
import Idealize.ShloMosaic.Lib.ValueIdx
import Idealize.ShloMosaic.PureOps.Ideal.Laws

noncomputable section

namespace Cert.ReferenceIdeal.CellRef

open Cert.ReferenceIdeal Cert.ReferenceIdeal.Gen Cert.ReferenceIdeal.Read Idealize.ShloMosaic Idealize.ShloMosaic.ValueIdx Cert.Cell

/-- The gate matrix at row `b`, column `g`: the cell's gate `g` of batch row `b`. The two contractions read row `b` of
    the batch operand against row `g` of the weights; each bias is read at `g` through its two broadcasts; and the sum's
    grouping differs from the cell's by one exchange of summands. -/
theorem gates_at (x0 x1 : (⟨S65536x256, .f32⟩ : BufTy).Contents (Elt Ideal)) (x3 x4 : (⟨S1024x256, .f32⟩ : BufTy).Contents (Elt Ideal)) (x5 x6 : (⟨S1024, .f32⟩ : BufTy).Contents (Elt Ideal)) (b : Fin 65536) (g : Fin 1024) :
    val_main_v8 (F := Ideal) x0 x1 x3 x4 x5 x6 (ix2 b g)
      = gateRow (fun k => x0 (ix2 b k)) (fun k => x1 (ix2 b k)) x3 x4 (fun g' => x5 (ix1 g')) (fun g' => x6 (ix1 g')) g := by
  rw [val_main_v8_apply, val_main_v5_apply, val_main_v3_apply, val_main_v0_apply, val_main_v4_apply, val_main_v2_apply,
    val_main_v1_apply, val_main_v7_apply, val_main_v6_apply]
  have el0 : ∀ k : Fin 256, lidx_main_v0 (ix2 b g) k = ix2 b k := fun k => funext fun a => by
    match a with | ⟨0, _⟩ => rfl | ⟨1, _⟩ => rfl
  have er0 : ∀ k : Fin 256, ridx_main_v0 (ix2 b g) k = ix2 g k := fun k => funext fun a => by
    match a with | ⟨0, _⟩ => rfl | ⟨1, _⟩ => rfl
  have el4 : ∀ k : Fin 256, lidx_main_v4 (ix2 b g) k = ix2 b k := fun k => funext fun a => by
    match a with | ⟨0, _⟩ => rfl | ⟨1, _⟩ => rfl
  have er4 : ∀ k : Fin 256, ridx_main_v4 (ix2 b g) k = ix2 g k := fun k => funext fun a => by
    match a with | ⟨0, _⟩ => rfl | ⟨1, _⟩ => rfl
  have eb5 : idx_main_v1 (idx_main_v2 (ix2 b g)) = ix1 g := funext fun a => by
    match a with | ⟨0, _⟩ => rfl
  have eb6 : idx_main_v6 (idx_main_v7 (ix2 b g)) = ix1 g := funext fun a => by
    match a with | ⟨0, _⟩ => rfl
  simp only [el0, er0, el4, er4, eb5, eb6]
  unfold gateRow
  exact sum_regroup _ _ _ _

/-- The new cell state at `(b, j)`: the forget gate (columns from 256) times the old state plus the input gate (columns
    from 0) times the candidate (columns from 512), each logistic spelt as the quotient. -/
theorem cell_at (x0 x1 x2 : (⟨S65536x256, .f32⟩ : BufTy).Contents (Elt Ideal)) (x3 x4 : (⟨S1024x256, .f32⟩ : BufTy).Contents (Elt Ideal)) (x5 x6 : (⟨S1024, .f32⟩ : BufTy).Contents (Elt Ideal)) (b : Fin 65536) (j : Fin 256) :
    val_main_v34 (F := Ideal) x0 x1 x2 x3 x4 x5 x6 (ix2 b j)
      = cRow (fun k => x0 (ix2 b k)) (fun k => x1 (ix2 b k)) x3 x4 (fun g' => x5 (ix1 g')) (fun g' => x6 (ix1 g')) (x2 (ix2 b j)) j := by
  simp only [val_main_v34_apply, val_main_v32_apply, val_main_v33_apply, val_main_v24_apply, val_main_v23_apply,
    val_main_cst_2_apply, val_main_v22_apply, val_main_v21_apply, val_main_cst_1_apply, val_main_v20_apply,
    val_main_v19_apply, val_main_v10_apply, val_main_v18_apply, val_main_v17_apply, val_main_cst_0_apply,
    val_main_v16_apply, val_main_v15_apply, val_main_cst_apply, val_main_v14_apply, val_main_v13_apply,
    val_main_v9_apply, val_main_v25_apply, val_main_v11_apply]
  have i9 : idx_main_v9 (ix2 b j) = ix2 b (col 0 j) := funext fun a => Fin.ext (by
    match a with
    | ⟨0, _⟩ => rfl
    | ⟨1, _⟩ => show j.val = 256 * 0 + j.val; omega)
  have i10 : idx_main_v10 (ix2 b j) = ix2 b (col 1 j) := funext fun a => Fin.ext (by
    match a with
    | ⟨0, _⟩ => rfl
    | ⟨1, _⟩ => show 256 + j.val = 256 * 1 + j.val; omega)
  have i11 : idx_main_v11 (ix2 b j) = ix2 b (col 2 j) := funext fun a => Fin.ext (by
    match a with
    | ⟨0, _⟩ => rfl
    | ⟨1, _⟩ => show 512 + j.val = 256 * 2 + j.val; omega)
  rw [i9, i10, i11, gates_at, gates_at, gates_at]
  unfold cRow
  simp only [Ideal.ofBits_def, ofBits_one, Ideal.hostDivf_def, Ideal.addf_def, Ideal.hostUnary_exp_def,
    Ideal.hostNegf_def, Ideal.negf_def, Ideal.mulf_def, Ideal.hostUnary_tanh_def, logistic_eq_quotient]

/-- The new hidden state at `(b, j)`: the output gate (columns from 768) times the hyperbolic tangent of the new cell
    state. -/
theorem hidden_at (x0 x1 x2 : (⟨S65536x256, .f32⟩ : BufTy).Contents (Elt Ideal)) (x3 x4 : (⟨S1024x256, .f32⟩ : BufTy).Contents (Elt Ideal)) (x5 x6 : (⟨S1024, .f32⟩ : BufTy).Contents (Elt Ideal)) (b : Fin 65536) (j : Fin 256) :
    val_main_v36 (F := Ideal) x0 x1 x2 x3 x4 x5 x6 (ix2 b j)
      = hRow (fun k => x0 (ix2 b k)) (fun k => x1 (ix2 b k)) x3 x4 (fun g' => x5 (ix1 g')) (fun g' => x6 (ix1 g')) (x2 (ix2 b j)) j := by
  rw [val_main_v36_apply, val_main_v35_apply, cell_at]
  simp only [val_main_v31_apply, val_main_v30_apply, val_main_cst_4_apply, val_main_v29_apply, val_main_v28_apply,
    val_main_cst_3_apply, val_main_v27_apply, val_main_v26_apply, val_main_v12_apply]
  have i12 : idx_main_v12 (ix2 b j) = ix2 b (col 3 j) := funext fun a => Fin.ext (by
    match a with
    | ⟨0, _⟩ => rfl
    | ⟨1, _⟩ => show 768 + j.val = 256 * 3 + j.val; omega)
  rw [i12, gates_at]
  unfold hRow
  simp only [Ideal.ofBits_def, ofBits_one, Ideal.hostDivf_def, Ideal.addf_def, Ideal.hostUnary_exp_def,
    Ideal.hostNegf_def, Ideal.negf_def, Ideal.mulf_def, Ideal.hostUnary_tanh_def, logistic_eq_quotient]

/-- The reference's second result, as a whole array, is the cell's new cell state. -/
theorem cell_eq (x0 x1 x2 : (⟨S65536x256, .f32⟩ : BufTy).Contents (Elt Ideal)) (x3 x4 : (⟨S1024x256, .f32⟩ : BufTy).Contents (Elt Ideal)) (x5 x6 : (⟨S1024, .f32⟩ : BufTy).Contents (Elt Ideal)) :
    val_main_v34 (F := Ideal) x0 x1 x2 x3 x4 x5 x6 = cNew x0 x1 x2 x3 x4 x5 x6 := by
  funext i
  obtain ⟨b, j, rfl⟩ : ∃ (b : Fin 65536) (j : Fin 256), i = ix2 b j := ⟨i 0, i 1, eq_ix2 i⟩
  rw [cell_at]; rfl

/-- The reference's first result, as a whole array, is the cell's new hidden state. -/
theorem hidden_eq (x0 x1 x2 : (⟨S65536x256, .f32⟩ : BufTy).Contents (Elt Ideal)) (x3 x4 : (⟨S1024x256, .f32⟩ : BufTy).Contents (Elt Ideal)) (x5 x6 : (⟨S1024, .f32⟩ : BufTy).Contents (Elt Ideal)) :
    val_main_v36 (F := Ideal) x0 x1 x2 x3 x4 x5 x6 = hNew x0 x1 x2 x3 x4 x5 x6 := by
  funext i
  obtain ⟨b, j, rfl⟩ : ∃ (b : Fin 65536) (j : Fin 256), i = ix2 b j := ⟨i 0, i 1, eq_ix2 i⟩
  rw [hidden_at]; rfl

end Cert.ReferenceIdeal.CellRef

end
-- ==== Proof.lean ====
/-
  An LSTM cell step as a Pallas kernel, against its jnp reference, over the extended reals.

  Both programs take x, h, c : f32[65536, 256], W_ih, W_hh : f32[1024, 256], b_ih, b_hh : f32[1024] and return the new hidden
  state and the new cell state. With gate g of a batch row the affine form
      (Σ_k x[b, k] · W_ih[g, k]) + (Σ_k h[b, k] · W_hh[g, k]) + b_ih[g] + b_hh[g]
  and σ the logistic function, both compute
      c'[b, j] = σ(gate(256 + j)) · c[b, j] + σ(gate j) · tanh(gate(512 + j)),   h'[b, j] = σ(gate(768 + j)) · tanh c'[b, j].
  They differ in three ways, none of which changes a value over the extended reals:
    * the kernel walks the batch in 64 blocks of 1024 rows, each block's two products contractions over the 256 features into
      a zero accumulator with operands narrowed to bf16 (a change of format is the identity here); the reference forms the two
      products of the whole batch at once. A gate of a row reads that row only, so block by block is the whole;
    * the kernel adds the summands as ((x·W_ihᵀ + h·W_hhᵀ) + b_ih) + b_hh, the reference as ((x·W_ihᵀ + b_ih) + h·W_hhᵀ) + b_hh:
      one exchange of summands, which addition on the extended reals allows with no finiteness (so the precondition is never
      opened);
    * the kernel applies the logistic function as one operation, the reference spells it 1 / (1 + e^(-x)): the same function,
      its values at the infinities included.
  `Proof/Cell.lean` states the cell; `Proof/KerGate.lean` and `Proof/KerValue.lean` show the kernel's two result arrays are
  the cell's; `Proof/RefCell.lean` shows the reference's are. The idealization rewrote nothing, so `preserves` is trivial.
-/
import proofs.«164098_j26551487824698_1_alg».proof.Defs
import proofs.«164098_j26551487824698_1_alg».proof.Proof.Gen.Kernel
import proofs.«164098_j26551487824698_1_alg».proof.Proof.Gen.Kernel.Skeleton
import proofs.«164098_j26551487824698_1_alg».proof.Proof.Gen.Kernel.Launch
import proofs.«164098_j26551487824698_1_alg».proof.Proof.Gen.Kernel.Points
import proofs.«164098_j26551487824698_1_alg».proof.Proof.Gen.Kernel.Frame
import proofs.«164098_j26551487824698_1_alg».proof.Proof.Gen.KernelIdeal
import proofs.«164098_j26551487824698_1_alg».proof.Proof.Gen.KernelIdeal.Skeleton
import proofs.«164098_j26551487824698_1_alg».proof.Proof.Gen.KernelIdeal.Launch
import proofs.«164098_j26551487824698_1_alg».proof.Proof.Gen.KernelIdeal.Points
import proofs.«164098_j26551487824698_1_alg».proof.Proof.Gen.KernelIdeal.Frame
import proofs.«164098_j26551487824698_1_alg».proof.Proof.Gen.ReferenceIdeal
import proofs.«164098_j26551487824698_1_alg».proof.Proof.Gen.Pre_finite_inputs
import proofs.«164098_j26551487824698_1_alg».proof.Proof.Gen.KernelIdeal.Value
import proofs.«164098_j26551487824698_1_alg».proof.Proof.Gen.ReferenceIdeal.Run
import proofs.«164098_j26551487824698_1_alg».proof.Proof.Gen.ReferenceIdeal.Read
import proofs.«164098_j26551487824698_1_alg».proof.Proof.Cell
import proofs.«164098_j26551487824698_1_alg».proof.Proof.KerValue
import proofs.«164098_j26551487824698_1_alg».proof.Proof.RefCell
import Idealize.ShloMosaic.Adequacy
import Idealize.ShloMosaic.Init

noncomputable section

namespace Cert.Proof

open Idealize.ShloMosaic Idealize.ShloMosaic.TcCoe Idealize.SL.Sem Cert.Cell

/-- The kernel as printed runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, the results forgotten. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the seven arguments, both programs end with the first result the cell's new hidden state and
    the second its new cell state: the kernel by its run read block by block, the reference by its run read one operation at
    a time, and the arguments' agreement makes the two the same arrays. -/
theorem algebraic : Cert.algebraic_KernelIdeal_ReferenceIdeal := by
  intro m ρ m' ρ' _ hagree
  refine ⟨fun c => hNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => cNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.CellValue.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6⟩ := hagree c
    rw [(h c).1, Cert.ReferenceIdeal.Read.val_main_v36_eq, Cert.ReferenceIdeal.CellRef.hidden_eq, e0, e1, e2, e3, e4, e5, e6]
  · obtain ⟨e0, e1, e2, e3, e4, e5, e6⟩ := hagree c
    rw [(h c).2.1, Cert.ReferenceIdeal.Read.val_main_v34_eq, Cert.ReferenceIdeal.CellRef.cell_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
